-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x625000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S100000 : Shape := ⟨1, ![100000]⟩
abbrev S100000x1 : Shape := ⟨2, ![100000, 1]⟩
abbrev S5000x128 : Shape := ⟨2, ![5000, 128]⟩
abbrev S1x128 : Shape := ⟨2, ![1, 128]⟩

abbrev nBuf : Space → Nat
  | .hbm => 76
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x625000, .i32⟩
  | .hbm, ⟨9, _⟩ => ⟨S625000, .i32⟩
  | .hbm, ⟨10, _⟩ => ⟨S1x625000, .i32⟩
  | .hbm, ⟨11, _⟩ => ⟨S625000, .i32⟩
  | .hbm, ⟨12, _⟩ => ⟨S_, .i32⟩
  | .hbm, ⟨13, _⟩ => ⟨S625000, .i32⟩
  | .hbm, ⟨14, _⟩ => ⟨S625000, .i1⟩
  | .hbm, ⟨15, _⟩ => ⟨S_, .i32⟩
  | .hbm, ⟨16, _⟩ => ⟨S625000, .i32⟩
  | .hbm, ⟨17, _⟩ => ⟨S625000, .i32⟩
  | .hbm, ⟨18, _⟩ => ⟨S625000, .i32⟩
  | .hbm, ⟨19, _⟩ => ⟨S625000x1, .i32⟩
  | .hbm, ⟨20, _⟩ => ⟨S625000x128, .f32⟩
  | .hbm, ⟨21, _⟩ => ⟨S_, .f32⟩
  | .hbm, ⟨22, _⟩ => ⟨S100000x128, .f32⟩
  | .hbm, ⟨23, _⟩ => ⟨S625000x1, .i32⟩
  | .hbm, ⟨24, _⟩ => ⟨S100000x128, .f32⟩
  | .hbm, ⟨25, _⟩ => ⟨S_, .f32⟩
  | .hbm, ⟨26, _⟩ => ⟨S625000, .f32⟩
  | .hbm, ⟨27, _⟩ => ⟨S_, .f32⟩
  | .hbm, ⟨28, _⟩ => ⟨S100000, .f32⟩
  | .hbm, ⟨29, _⟩ => ⟨S625000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S128x128, .bf16⟩
  | .hbm, ⟨39, _⟩ => ⟨S128x128, .f32⟩
  | .hbm, ⟨40, _⟩ => ⟨S128x128, .bf16⟩
  | .hbm, ⟨41, _⟩ => ⟨S100000x128, .f32⟩
  | .hbm, ⟨42, _⟩ => ⟨S1x625000, .i32⟩
  | .hbm, ⟨43, _⟩ => ⟨S625000, .i32⟩
  | .hbm, ⟨44, _⟩ => ⟨S1x625000, .i32⟩
  | .hbm, ⟨45, _⟩ => ⟨S625000, .i32⟩
  | .hbm, ⟨46, _⟩ => ⟨S_, .i32⟩
  | .hbm, ⟨47, _⟩ => ⟨S625000, .i32⟩
  | .hbm, ⟨48, _⟩ => ⟨S625000, .i1⟩
  | .hbm, ⟨49, _⟩ => ⟨S_, .i32⟩
  | .hbm, ⟨50, _⟩ => ⟨S625000, .i32⟩
  | .hbm, ⟨51, _⟩ => ⟨S625000, .i32⟩
  | .hbm, ⟨52, _⟩ => ⟨S625000, .i32⟩
  | .hbm, ⟨53, _⟩ => ⟨S625000x1, .i32⟩
  | .hbm, ⟨54, _⟩ => ⟨S625000x128, .f32⟩
  | .hbm, ⟨55, _⟩ => ⟨S_, .f32⟩
  | .hbm, ⟨56, _⟩ => ⟨S100000x128, .f32⟩
  | .hbm, ⟨57, _⟩ => ⟨S625000x1, .i32⟩
  | .hbm, ⟨58, _⟩ => ⟨S100000x128, .f32⟩
  | .hbm, ⟨59, _⟩ => ⟨S_, .f32⟩
  | .hbm, ⟨60, _⟩ => ⟨S625000, .f32⟩
  | .hbm, ⟨61, _⟩ => ⟨S_, .f32⟩
  | .hbm, ⟨62, _⟩ => ⟨S100000, .f32⟩
  | .hbm, ⟨63, _⟩ => ⟨S625000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S128x128, .f32⟩
  | .hbm, ⟨72, _⟩ => ⟨S128x128, .bf16⟩
  | .hbm, ⟨73, _⟩ => ⟨S128x128, .f32⟩
  | .hbm, ⟨74, _⟩ => ⟨S128x128, .bf16⟩
  | .hbm, ⟨75, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S128x128, .bf16⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .bf16⟩
  | .local _ .vmem, ⟨14, _⟩ => ⟨S128x128, .bf16⟩
  | .local _ .vmem, ⟨15, _⟩ => ⟨S128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_4 : Ref sig .tc := ⟨.hbm, 46, rfl⟩
abbrev main_v32 : Ref sig .tc := ⟨.hbm, 47, rfl⟩
abbrev main_v33 : Ref sig .tc := ⟨.hbm, 48, rfl⟩
abbrev main_c_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  scatter_S100000_S625000x1_S625000_n_0_0_1_wf : ScatterDims.WF S100000 S625000x1 S625000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v50) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v52) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v55) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 85
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x625000, .i32⟩
  | .hbm, ⟨9, _⟩ => ⟨S625000, .i32⟩
  | .hbm, ⟨10, _⟩ => ⟨S1x625000, .i32⟩
  | .hbm, ⟨11, _⟩ => ⟨S625000, .i32⟩
  | .hbm, ⟨12, _⟩ => ⟨S_, .i32⟩
  | .hbm, ⟨13, _⟩ => ⟨S625000, .i32⟩
  | .hbm, ⟨14, _⟩ => ⟨S625000, .i1⟩
  | .hbm, ⟨15, _⟩ => ⟨S_, .i32⟩
  | .hbm, ⟨16, _⟩ => ⟨S625000, .i32⟩
  | .hbm, ⟨17, _⟩ => ⟨S625000, .i32⟩
  | .hbm, ⟨18, _⟩ => ⟨S625000, .i32⟩
  | .hbm, ⟨19, _⟩ => ⟨S625000x1, .i32⟩
  | .hbm, ⟨20, _⟩ => ⟨S625000x128, .f32⟩
  | .hbm, ⟨21, _⟩ => ⟨S_, .f32⟩
  | .hbm, ⟨22, _⟩ => ⟨S100000x128, .f32⟩
  | .hbm, ⟨23, _⟩ => ⟨S625000x1, .i32⟩
  | .hbm, ⟨24, _⟩ => ⟨S100000x128, .f32⟩
  | .hbm, ⟨25, _⟩ => ⟨S_, .f32⟩
  | .hbm, ⟨26, _⟩ => ⟨S625000, .f32⟩
  | .hbm, ⟨27, _⟩ => ⟨S_, .f32⟩
  | .hbm, ⟨28, _⟩ => ⟨S100000, .f32⟩
  | .hbm, ⟨29, _⟩ => ⟨S625000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S1x625000, .i32⟩
  | .hbm, ⟨49, _⟩ => ⟨S625000, .i32⟩
  | .hbm, ⟨50, _⟩ => ⟨S1x625000, .i32⟩
  | .hbm, ⟨51, _⟩ => ⟨S625000, .i32⟩
  | .hbm, ⟨52, _⟩ => ⟨S_, .i32⟩
  | .hbm, ⟨53, _⟩ => ⟨S625000, .i32⟩
  | .hbm, ⟨54, _⟩ => ⟨S625000, .i1⟩
  | .hbm, ⟨55, _⟩ => ⟨S_, .i32⟩
  | .hbm, ⟨56, _⟩ => ⟨S625000, .i32⟩
  | .hbm, ⟨57, _⟩ => ⟨S625000, .i32⟩
  | .hbm, ⟨58, _⟩ => ⟨S625000, .i32⟩
  | .hbm, ⟨59, _⟩ => ⟨S625000x1, .i32⟩
  | .hbm, ⟨60, _⟩ => ⟨S625000x128, .f32⟩
  | .hbm, ⟨61, _⟩ => ⟨S_, .f32⟩
  | .hbm, ⟨62, _⟩ => ⟨S100000x128, .f32⟩
  | .hbm, ⟨63, _⟩ => ⟨S625000x1, .i32⟩
  | .hbm, ⟨64, _⟩ => ⟨S100000x128, .f32⟩
  | .hbm, ⟨65, _⟩ => ⟨S_, .f32⟩
  | .hbm, ⟨66, _⟩ => ⟨S625000, .f32⟩
  | .hbm, ⟨67, _⟩ => ⟨S_, .f32⟩
  | .hbm, ⟨68, _⟩ => ⟨S100000, .f32⟩
  | .hbm, ⟨69, _⟩ => ⟨S625000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S128x128, .f32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S128x128, .f32⟩
  | .hbm, ⟨83, _⟩ => ⟨S100000x128, .f32⟩
  | .hbm, ⟨84, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_4 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  scatter_S100000_S625000x1_S625000_n_0_0_1_wf : ScatterDims.WF S100000 S625000x1 S625000 [] [0] [0] 1
  dot_S100000x128_S128x128_S100000x128_1_0_0_1_n_n_wf : DotDims.WF S100000x128 S128x128 S100000x128 [1] [0] [0] [1] [] []

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.CombineBody.lean ====
/-
  One SAGE layer's combine step, read at an element.

  A block of 5000 node rows of the aggregated neighbours a and of the nodes' own features x, two 128×128 weights
  wl and wr (stored contraction-major: wl (k, q) multiplies feature k into output column q) and a bias b give,
  at row p and column q of the block,

      (∑ₖ a (p, k) · wl (k, q) + ∑ₖ x (p, k) · wr (k, q)) + b q ,

  in the first layer cut off below at zero. On the extended reals the narrowing of the operands to half precision is
  the identity, a matrix product into a zero accumulator is the plain sum over the contracted axis, and the bias row,
  cast to one row and repeated down the block, contributes its entry under column q.
-/
import proofs.«148516_j6571299963061_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Combine

open Cert.KernelIdeal Cert.KernelIdeal.Gen Idealize.ShloMosaic Idealize.ShloMosaic.TcCoe

/-! ## Where an output element reads its operands -/

/-- Row of the output element, feature k: the left operand's entry that meets contraction position k. -/
abbrev rowAt (j : S5000x128.Idx) (k : Fin 128) : S5000x128.Idx := fun a => match a with
  | ⟨0, _⟩ => ⟨(j 0).val, (j 0).isLt⟩
  | ⟨1, _⟩ => ⟨k.val, k.isLt⟩
/-- Feature k, column of the output element: the weight's entry that meets contraction position k. -/
abbrev colAt (j : S5000x128.Idx) (k : Fin 128) : S128x128.Idx := fun a => match a with
  | ⟨0, _⟩ => ⟨k.val, k.isLt⟩
  | ⟨1, _⟩ => ⟨(j 1).val, (j 1).isLt⟩
/-- The bias entry under the output element's column. -/
abbrev biasAt (j : S5000x128.Idx) : S128.Idx := fun a => match a with
  | ⟨0, _⟩ => ⟨(j 1).val, (j 1).isLt⟩
/-- The same entry in the bias seen as one row. -/
abbrev biasRowAt (j : S5000x128.Idx) : S1x128.Idx := fun a => match a with
  | ⟨0, _⟩ => ⟨0, Nat.one_pos⟩
  | ⟨1, _⟩ => ⟨(j 1).val, (j 1).isLt⟩

/-! ## The matrix product at an element -/

theorem lhs_axis0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem rhs_axis0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem rhs_axis1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block times a weight, accumulated from zero, at an element: the sum over the 128 features of the block's row
    entry times the weight's column entry. -/
theorem matmul_at {φ₁ φ₂ : FTy} (l : FVec Ideal S5000x128 φ₁) (r : FVec Ideal S128x128 φ₂) (j : S5000x128.Idx) :
    matmul dot_S5000x128_S128x128_S5000x128_1_0_0_1_n_n none l r (constant S5000x128 .f32 0x00000000#32) j
      = ∑ k : Fin 128, l (rowAt j k) * r (colAt j k) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = rowAt j k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx j ((ValueIdx.contrEquiv1 dot_S5000x128_S128x128_S5000x128_1_0_0_1_n_n 128 rfl rfl).symm k) = colAt j k := funext fun a => Fin.ext (by
    match a with
    | ⟨0, _⟩ => exact (rhs_axis0 _ _).trans hk
    | ⟨1, _⟩ => exact rhs_axis1 _ _)
  rw [el, er]

/-! ## The bias at an element -/

/-- The bias, cast to one row and repeated down the block, at an element: its entry under the element's column. -/
theorem bias_at (b : FVec Ideal S128 .f32) (j : S5000x128.Idx) :
    broadcastTo S5000x128 (shapeCast S1x128 b shapeCasts_S128_S1x128) broadcasts_S1x128_S5000x128 j = b (biasAt j) := by
  rw [broadcastTo_apply _ broadcasts_S1x128_S5000x128 j (biasRowAt j) (fun a => match a with
    | ⟨0, _⟩ => by show 0 = if (1 : Nat) = 1 then 0 else _; rw [if_pos rfl]
    | ⟨1, _⟩ => by show (j 1).val = if (128 : Nat) = 1 then 0 else (j 1).val; rw [if_neg (by decide)])]
  exact shapeCast_apply b shapeCasts_S128_S1x128 (biasRowAt j) (biasAt j) (by
    rw [Shape.rowMajor_val_one, Shape.rowMajor_val_two]
    show (j 1).val = 0 * 128 + (j 1).val
    omega)

/-! ## The two layers' payloads at an element -/

/-- The first layer's payload: the two products, the bias, and the cut at zero. -/
theorem pay0_at (a x : Vec Ideal S5000x128 .f32) (wl wr : Vec Ideal S128x128 .bf16) (b : Vec Ideal S128 .f32) (j : S5000x128.Idx) :
    k0_pay1 a x wl wr b j
      = max (((∑ k : Fin 128, a (rowAt j k) * wl (colAt j k)) + ∑ k : Fin 128, x (rowAt j k) * wr (colAt j k)) + b (biasAt j))
          (Ideal.ofBits .f32 0x00000000#32) := by
  unfold k0_pay1
  rw [ValueIdx.maximumf_apply, ValueIdx.addf_apply, ValueIdx.addf_apply, matmul_at, matmul_at, bias_at]
  simp only [shapeCast_self, ValueIdx.truncf_apply]
  rfl

/-- The second layer's payload: the two products and the bias. -/
theorem pay1_at (a x : Vec Ideal S5000x128 .f32) (wl wr : Vec Ideal S128x128 .bf16) (b : Vec Ideal S128 .f32) (j : S5000x128.Idx) :
    k1_pay1 a x wl wr b j
      = ((∑ k : Fin 128, a (rowAt j k) * wl (colAt j k)) + ∑ k : Fin 128, x (rowAt j k) * wr (colAt j k)) + b (biasAt j) := by
  unfold k1_pay1
  rw [ValueIdx.addf_apply, ValueIdx.addf_apply, matmul_at, matmul_at, bias_at]
  simp only [shapeCast_self, ValueIdx.truncf_apply]

end Cert.KernelIdeal.Combine

end
-- ==== Proof.SageSpec.lean ====
/-
  A mean-aggregation SAGE layer as a function of whole arrays, on the extended reals.

  For 100000 nodes with 128 features each, from the aggregated neighbour features a, the nodes' own features x, two
  128×128 weights wl and wr stored contraction-major (wl (k, q) multiplies feature k into output feature q) and a
  bias b, the layer's output at node n and feature q is

      (∑ₖ a (n, k) · wl (k, q) + ∑ₖ x (n, k) · wr (k, q)) + b q .

  The hidden layer cuts this off below at zero. Adding the bias before or after the second product gives the same
  extended real: addition there is commutative and associative, infinities included, so no operand need be finite.
-/
import Idealize.ShloMosaic.PureOps.Ideal
import Idealize.ShloMosaic.Lib.ValueIdx

noncomputable section

namespace Cert.Sage

open Idealize.ShloMosaic

/-- Node features: one row of 128 features per node. -/
abbrev Nodes : Shape := ⟨2, ![100000, 128]⟩
/-- A weight, contraction-major. -/
abbrev Weight : Shape := ⟨2, ![128, 128]⟩
/-- A bias row. -/
abbrev Bias : Shape := ⟨1, ![128]⟩

/-- Feature k of the node of element i. -/
abbrev featAt (i : Nodes.Idx) (k : Fin 128) : Nodes.Idx := fun a => match a with
  | ⟨0, _⟩ => ⟨(i 0).val, (i 0).isLt⟩
  | ⟨1, _⟩ => ⟨k.val, k.isLt⟩
/-- The weight entry taking feature k to the output feature of element i. -/
abbrev weightAt (i : Nodes.Idx) (k : Fin 128) : Weight.Idx := fun a => match a with
  | ⟨0, _⟩ => ⟨k.val, k.isLt⟩
  | ⟨1, _⟩ => ⟨(i 1).val, (i 1).isLt⟩
/-- The bias entry of the output feature of element i. -/
abbrev biasAt (i : Nodes.Idx) : Bias.Idx := fun a => match a with
  | ⟨0, _⟩ => ⟨(i 1).val, (i 1).isLt⟩

/-- The layer before any cut: both products, then the bias. -/
def combine (a x : Nodes.Idx → EReal) (wl wr : Weight.Idx → EReal) (b : Bias.Idx → EReal) : Nodes.Idx → EReal :=
  fun i => ((∑ k : Fin 128, a (featAt i k) * wl (weightAt i k)) + ∑ k : Fin 128, x (featAt i k) * wr (weightAt i k)) + b (biasAt i)

/-- The hidden layer: the same, cut off below at zero. -/
def hidden (a x : Nodes.Idx → EReal) (wl wr : Weight.Idx → EReal) (b : Bias.Idx → EReal) : Nodes.Idx → EReal :=
  fun i => max (combine a x wl wr b i) (Ideal.ofBits .f32 0x00000000#32)

/-- The bias may be added between the two products instead of after them. -/
theorem bias_between (p q r : EReal) : (p + r) + q = (p + q) + r := add_right_comm p r q

end Cert.Sage

end
-- ==== Proof.LayerBlocks.lean ====
/-
  From blocks to arrays: what each of the two pallas regions leaves in its output array.

  Each region walks 20 grid points; point t stages node rows 5000·t … 5000·t + 4999 of the aggregate and of the
  features, both weights and the bias whole, and writes back the same node rows of the output. The body's result
  at an element is the layer's formula of the staged blocks, an element of a staged block is the element of its
  array 5000·t rows further down, and the 20 blocks tile the 100000 rows: so after the last write-back the output
  array is the layer's whole-array function of the arrays the region found when it was entered.
-/
import proofs.«148516_j6571299963061_1_alg».proof.Proof.Gen.KernelIdeal.Frame
import proofs.«148516_j6571299963061_1_alg».proof.Proof.CombineBody
import proofs.«148516_j6571299963061_1_alg».proof.Proof.SageSpec
import Idealize.ShloMosaic.Lib.Pipeline.Value

set_option maxRecDepth 16384

noncomputable section

namespace Cert.KernelIdeal.Layers

open Cert.KernelIdeal Cert.KernelIdeal.Gen Idealize.ShloMosaic Idealize.ShloMosaic.TcCoe Idealize.SL.Sem
open Idealize.ShloMosaic.Pipeline (Dat Cfg Window)

-- the buffer contents when a region is entered: every statement below holds at any
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## Layer one (hidden): region 0 -/

/-- The arrays region 0 finds, at their literal types: the aggregate, the features, the two weights, the bias. -/
abbrev arr0_0 (c : Dev nD) : FVec Ideal S100000x128 .f32 := V c main_v22
abbrev arr0_1 (c : Dev nD) : FVec Ideal S100000x128 .f32 := V c main_arg0
abbrev arr0_2 (c : Dev nD) : FVec Ideal S128x128 .bf16 := V c main_v24
abbrev arr0_3 (c : Dev nD) : FVec Ideal S128x128 .bf16 := V c main_v26
abbrev arr0_4 (c : Dev nD) : FVec Ideal S128 .f32 := V c main_arg3

/-- The printed index maps of region 0, decided once over its 20 grid points: the two node-row operands move with the
    output, block t covering node rows 5000·t … 5000·t + 4999; the weights and the bias are fetched whole. -/
theorem idx_facts0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- What grid point t writes back is block t of the layer's whole-array function of the arrays the region finds:
    an element of the block reads the same node row of the aggregate and of the features, the whole weights, and
    the bias entry of its column. -/
theorem flushed0_eq (c : Dev nD) (t : Fin cfg0.N) :
    (dat0 V c).flushed 5 t = ((cfg0.win 5).blk t).view.read (Elt Ideal)
      (Sage.hidden (arr0_0 V c) (arr0_1 V c) (arr0_2 V c) (arr0_3 V c) (arr0_4 V c)) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x128) hz2, View.ld_unit_zero (S := S128) hz1]
  obtain ⟨e0, e1, e2, e3, e4, e5, e6, e7, e8, e9, e10⟩ := idx_facts0 t
  funext j
  refine (Combine.pay0_at (iblk0 V c 0 t) (iblk0 V c 1 t) (iblk0 V c 2 t) (iblk0 V c 3 t) (iblk0 V c 4 t) j).trans ?_
  have hj0 : (j 0).val < 5000 := (j 0).isLt
  have hj1 : (j 1).val < 128 := (j 1).isLt
  have ha : ∀ k : Fin 128, ((cfg0.win 0).blk t).view.emb (Combine.rowAt j k) = Sage.featAt (((cfg0.win 5).blk t).view.emb j) k := fun k => by
    funext a; apply Fin.ext
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  have hx : ∀ k : Fin 128, ((cfg0.win 1).blk t).view.emb (Combine.rowAt j k) = Sage.featAt (((cfg0.win 5).blk t).view.emb j) k := fun k => by
    funext a; apply Fin.ext
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * k.val = k.val; omega
  have hl : ∀ k : Fin 128, ((cfg0.win 2).blk t).view.emb (Combine.colAt j k) = Sage.weightAt (((cfg0.win 5).blk t).view.emb j) k := fun k => by
    funext a; apply Fin.ext
    match a with
    | ⟨0, _⟩ => show win0_2.index t (0 : Fin 2) * 128 + 1 * k.val = k.val; omega
    | ⟨1, _⟩ => show win0_2.index t (1 : Fin 2) * 128 + 1 * (j 1).val = win0_5.index t (1 : Fin 2) * 128 + 1 * (j 1).val; omega
  have hr : ∀ k : Fin 128, ((cfg0.win 3).blk t).view.emb (Combine.colAt j k) = Sage.weightAt (((cfg0.win 5).blk t).view.emb j) k := fun k => by
    funext a; apply Fin.ext
    match a with
    | ⟨0, _⟩ => show win0_3.index t (0 : Fin 2) * 128 + 1 * k.val = k.val; omega
    | ⟨1, _⟩ => show win0_3.index t (1 : Fin 2) * 128 + 1 * (j 1).val = win0_5.index t (1 : Fin 2) * 128 + 1 * (j 1).val; omega
  have hb : ((cfg0.win 4).blk t).view.emb (Combine.biasAt j) = Sage.biasAt (((cfg0.win 5).blk t).view.emb j) := by
    funext a; apply Fin.ext
    match a with
    | ⟨0, _⟩ => show win0_4.index t (0 : Fin 1) * 128 + 1 * (j 1).val = win0_5.index t (1 : Fin 2) * 128 + 1 * (j 1).val; omega
  show max (((∑ k : Fin 128, arr0_0 V c (((cfg0.win 0).blk t).view.emb (Combine.rowAt j k)) * arr0_2 V c (((cfg0.win 2).blk t).view.emb (Combine.colAt j k)))
        + ∑ k : Fin 128, arr0_1 V c (((cfg0.win 1).blk t).view.emb (Combine.rowAt j k)) * arr0_3 V c (((cfg0.win 3).blk t).view.emb (Combine.colAt j k)))
        + arr0_4 V c (((cfg0.win 4).blk t).view.emb (Combine.biasAt j))) (Ideal.ofBits .f32 0x00000000#32)
      = Sage.hidden (arr0_0 V c) (arr0_1 V c) (arr0_2 V c) (arr0_3 V c) (arr0_4 V c) (((cfg0.win 5).blk t).view.emb j)
  simp only [ha, hx, hl, hr, hb]
  rfl

/-- An element of the output array is in point t's block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v27).slice (win0_5.rect t)).set ↔ _
  rw [View.set_slice_whole, Rect.mem_set_unit]
  exact Iff.rfl

/-- The 20 blocks of 5000 node rows tile the 100000 rows: the element of node row n is in block n / 5000. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have ht : (i 0).val / 5000 < 20 := by omega
  obtain ⟨e0, e1, e2, e3, e4, e5, e6, e7, e8, e9, e10⟩ := idx_facts0 ⟨(i 0).val / 5000, ht⟩
  have e9' : win0_5.index ⟨(i 0).val / 5000, ht⟩ (0 : Fin 2) = (i 0).val / 5000 := e9
  refine ⟨⟨(i 0).val / 5000, ht⟩, flush0_5 _, ?_⟩
  rw [mem_blk0]
  intro a
  match a with
  | ⟨0, _⟩ => show win0_5.index ⟨(i 0).val / 5000, ht⟩ (0 : Fin 2) * 5000 ≤ (i 0).val ∧ (i 0).val < win0_5.index ⟨(i 0).val / 5000, ht⟩ (0 : Fin 2) * 5000 + 5000; omega
  | ⟨1, _⟩ => show win0_5.index ⟨(i 0).val / 5000, ht⟩ (1 : Fin 2) * 128 ≤ (i 1).val ∧ (i 1).val < win0_5.index ⟨(i 0).val / 5000, ht⟩ (1 : Fin 2) * 128 + 128; omega

/-- The region's output array after its last write-back: the layer of the arrays the region found. -/
theorem final0 (c : Dev nD) :
    (dat0 V c).arrAt 5 cfg0.N
      = Sage.hidden (arr0_0 V c) (arr0_1 V c) (arr0_2 V c) (arr0_3 V c) (arr0_4 V c) :=
  (dat0 V c).arrAt_eq_of_cover 5 _ (fun t _ => flushed0_eq V c t) (cover0)

/-! ## Layer two (output): region 1 -/

/-- The arrays region 1 finds, at their literal types: the aggregate, the features, the two weights, the bias. -/
abbrev arr1_0 (c : Dev nD) : FVec Ideal S100000x128 .f32 := V c main_v50
abbrev arr1_1 (c : Dev nD) : FVec Ideal S100000x128 .f32 := V c main_v27
abbrev arr1_2 (c : Dev nD) : FVec Ideal S128x128 .bf16 := V c main_v52
abbrev arr1_3 (c : Dev nD) : FVec Ideal S128x128 .bf16 := V c main_v54
abbrev arr1_4 (c : Dev nD) : FVec Ideal S128 .f32 := V c main_arg6

/-- The printed index maps of region 1, decided once over its 20 grid points: the two node-row operands move with the
    output, block t covering node rows 5000·t … 5000·t + 4999; the weights and the bias are fetched whole. -/
theorem idx_facts1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- What grid point t writes back is block t of the layer's whole-array function of the arrays the region finds:
    an element of the block reads the same node row of the aggregate and of the features, the whole weights, and
    the bias entry of its column. -/
theorem flushed1_eq (c : Dev nD) (t : Fin cfg1.N) :
    (dat1 V c).flushed 5 t = ((cfg1.win 5).blk t).view.read (Elt Ideal)
      (Sage.combine (arr1_0 V c) (arr1_1 V c) (arr1_2 V c) (arr1_3 V c) (arr1_4 V c)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x128) hz2, View.ld_unit_zero (S := S128) hz1]
  obtain ⟨e0, e1, e2, e3, e4, e5, e6, e7, e8, e9, e10⟩ := idx_facts1 t
  funext j
  refine (Combine.pay1_at (iblk1 V c 0 t) (iblk1 V c 1 t) (iblk1 V c 2 t) (iblk1 V c 3 t) (iblk1 V c 4 t) j).trans ?_
  have hj0 : (j 0).val < 5000 := (j 0).isLt
  have hj1 : (j 1).val < 128 := (j 1).isLt
  have ha : ∀ k : Fin 128, ((cfg1.win 0).blk t).view.emb (Combine.rowAt j k) = Sage.featAt (((cfg1.win 5).blk t).view.emb j) k := fun k => by
    funext a; apply Fin.ext
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  have hx : ∀ k : Fin 128, ((cfg1.win 1).blk t).view.emb (Combine.rowAt j k) = Sage.featAt (((cfg1.win 5).blk t).view.emb j) k := fun k => by
    funext a; apply Fin.ext
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  have hl : ∀ k : Fin 128, ((cfg1.win 2).blk t).view.emb (Combine.colAt j k) = Sage.weightAt (((cfg1.win 5).blk t).view.emb j) k := fun k => by
    funext a; apply Fin.ext
    match a with
    | ⟨0, _⟩ => show win1_2.index t (0 : Fin 2) * 128 + 1 * k.val = k.val; omega
    | ⟨1, _⟩ => show win1_2.index t (1 : Fin 2) * 128 + 1 * (j 1).val = win1_5.index t (1 : Fin 2) * 128 + 1 * (j 1).val; omega
  have hr : ∀ k : Fin 128, ((cfg1.win 3).blk t).view.emb (Combine.colAt j k) = Sage.weightAt (((cfg1.win 5).blk t).view.emb j) k := fun k => by
    funext a; apply Fin.ext
    match a with
    | ⟨0, _⟩ => show win1_3.index t (0 : Fin 2) * 128 + 1 * k.val = k.val; omega
    | ⟨1, _⟩ => show win1_3.index t (1 : Fin 2) * 128 + 1 * (j 1).val = win1_5.index t (1 : Fin 2) * 128 + 1 * (j 1).val; omega
  have hb : ((cfg1.win 4).blk t).view.emb (Combine.biasAt j) = Sage.biasAt (((cfg1.win 5).blk t).view.emb j) := by
    funext a; apply Fin.ext
    match a with
    | ⟨0, _⟩ => show win1_4.index t (0 : Fin 1) * 128 + 1 * (j 1).val = win1_5.index t (1 : Fin 2) * 128 + 1 * (j 1).val; omega
  show ((∑ k : Fin 128, arr1_0 V c (((cfg1.win 0).blk t).view.emb (Combine.rowAt j k)) * arr1_2 V c (((cfg1.win 2).blk t).view.emb (Combine.colAt j k)))
        + ∑ k : Fin 128, arr1_1 V c (((cfg1.win 1).blk t).view.emb (Combine.rowAt j k)) * arr1_3 V c (((cfg1.win 3).blk t).view.emb (Combine.colAt j k)))
        + arr1_4 V c (((cfg1.win 4).blk t).view.emb (Combine.biasAt j))
      = Sage.combine (arr1_0 V c) (arr1_1 V c) (arr1_2 V c) (arr1_3 V c) (arr1_4 V c) (((cfg1.win 5).blk t).view.emb j)
  simp only [ha, hx, hl, hr, hb]
  rfl

/-- An element of the output array is in point t's block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v55).slice (win1_5.rect t)).set ↔ _
  rw [View.set_slice_whole, Rect.mem_set_unit]
  exact Iff.rfl

/-- The 20 blocks of 5000 node rows tile the 100000 rows: the element of node row n is in block n / 5000. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have ht : (i 0).val / 5000 < 20 := by omega
  obtain ⟨e0, e1, e2, e3, e4, e5, e6, e7, e8, e9, e10⟩ := idx_facts1 ⟨(i 0).val / 5000, ht⟩
  have e9' : win1_5.index ⟨(i 0).val / 5000, ht⟩ (0 : Fin 2) = (i 0).val / 5000 := e9
  refine ⟨⟨(i 0).val / 5000, ht⟩, flush1_5 _, ?_⟩
  rw [mem_blk1]
  intro a
  match a with
  | ⟨0, _⟩ => show win1_5.index ⟨(i 0).val / 5000, ht⟩ (0 : Fin 2) * 5000 ≤ (i 0).val ∧ (i 0).val < win1_5.index ⟨(i 0).val / 5000, ht⟩ (0 : Fin 2) * 5000 + 5000; omega
  | ⟨1, _⟩ => show win1_5.index ⟨(i 0).val / 5000, ht⟩ (1 : Fin 2) * 128 ≤ (i 1).val ∧ (i 1).val < win1_5.index ⟨(i 0).val / 5000, ht⟩ (1 : Fin 2) * 128 + 128; omega

/-- The region's output array after its last write-back: the layer of the arrays the region found. -/
theorem final1 (c : Dev nD) :
    (dat1 V c).arrAt 5 cfg1.N
      = Sage.combine (arr1_0 V c) (arr1_1 V c) (arr1_2 V c) (arr1_3 V c) (arr1_4 V c) :=
  (dat1 V c).arrAt_eq_of_cover 5 _ (fun t _ => flushed1_eq V c t) (cover1)

end Cert.KernelIdeal.Layers

end
-- ==== Proof.RefLayers.lean ====
/-
  The reference, read as the same two layers.

  The reference's last stage is a sum of three arrays: the aggregate times the transposed left weight, the bias
  repeated down the rows, and the features times the transposed right weight, added in that order; the hidden
  layer passes the same sum through a maximum with zero. Read at an element, a host matrix product is the sum over
  the 128 features, and each transposed weight is read contraction-major, so each layer is the layer formula with
  the bias added between the two products instead of after them: the same extended real. The mean aggregation (the
  gather along the edges' sources, the two scatter-sums over their targets, the clamp of the degree at one and the
  quotient) is never opened: the second layer applies the very same stage to the hidden layer's array.
-/
import proofs.«148516_j6571299963061_1_alg».proof.Proof.Gen.ReferenceIdeal.Read
import proofs.«148516_j6571299963061_1_alg».proof.Proof.SageSpec
import Idealize.ShloMosaic.PureOps.Ideal.Laws

noncomputable section

namespace Cert.ReferenceIdeal.Layers

open Cert.ReferenceIdeal Cert.ReferenceIdeal.Gen Cert.ReferenceIdeal.Read Idealize.ShloMosaic Idealize.ShloMosaic.TcCoe

/-- The mean of the neighbours' feature rows over the incoming edges (zero for a node without any), as the
    reference computes it from a feature array and the edge list: carried as one function, never opened. -/
abbrev aggregate (feat : FVec Ideal S100000x128 .f32) (edges : IVec S2x625000 32) : FVec Ideal S100000x128 .f32 :=
  val_main_v22 (F := Ideal) feat edges

/-- A weight read contraction-major: its transpose. -/
abbrev transposed (w : FVec Ideal S128x128 .f32) : FVec Ideal S128x128 .f32 := val_main_v23 (F := Ideal) w

/-- The four transposes of the program are one function of their weight. -/
theorem transposed_v28 (w : FVec Ideal S128x128 .f32) : val_main_v28 (F := Ideal) w = transposed w := rfl
theorem transposed_v55 (w : FVec Ideal S128x128 .f32) : val_main_v55 (F := Ideal) w = transposed w := rfl
theorem transposed_v60 (w : FVec Ideal S128x128 .f32) : val_main_v60 (F := Ideal) w = transposed w := rfl

/-- The hidden layer of the reference is the hidden layer's formula of the aggregate, the features, the two
    transposed weights and the bias. -/
theorem hidden_eq (x : FVec Ideal S100000x128 .f32) (e : IVec S2x625000 32) (w1l : FVec Ideal S128x128 .f32) (b1 : FVec Ideal S128 .f32)
    (w1r : FVec Ideal S128x128 .f32) :
    val_main_v31 (F := Ideal) x e w1l b1 w1r = Sage.hidden (aggregate x e) x (transposed w1l) (transposed w1r) b1 := by
  funext i
  rw [val_main_v31_apply, val_main_v30_apply, val_main_v27_apply, val_main_v24_apply, val_main_v29_apply, val_main_v26_apply,
    val_main_v25_apply, val_main_call0_v0_apply, val_main_call0_cst_apply]
  simp only [Ideal.addf_def, Ideal.maximumf_def, Ideal.ofBits_def]
  rw [Sage.bias_between]
  rfl

/-- The second layer aggregates the hidden layer's array with the same function as the first. -/
theorem aggregate_hidden (x : FVec Ideal S100000x128 .f32) (e : IVec S2x625000 32) (w1l : FVec Ideal S128x128 .f32) (b1 : FVec Ideal S128 .f32)
    (w1r : FVec Ideal S128x128 .f32) :
    val_main_v54 (F := Ideal) x e w1l b1 w1r = aggregate (val_main_v31 (F := Ideal) x e w1l b1 w1r) e := rfl

/-- The two layers as one function of the program's eight arguments, in their order: the output layer's formula of
    the aggregated hidden layer, the hidden layer, the second pair of transposed weights and the second bias. -/
def twoLayers (x : FVec Ideal S100000x128 .f32) (e : IVec S2x625000 32) (w1l : FVec Ideal S128x128 .f32) (b1 : FVec Ideal S128 .f32)
    (w1r w2l : FVec Ideal S128x128 .f32) (b2 : FVec Ideal S128 .f32) (w2r : FVec Ideal S128x128 .f32) : FVec Ideal S100000x128 .f32 :=
  Sage.combine (aggregate (Sage.hidden (aggregate x e) x (transposed w1l) (transposed w1r) b1) e)
    (Sage.hidden (aggregate x e) x (transposed w1l) (transposed w1r) b1) (transposed w2l) (transposed w2r) b2

/-- The reference's result is that function of its arguments. -/
theorem result_eq (x : FVec Ideal S100000x128 .f32) (e : IVec S2x625000 32) (w1l : FVec Ideal S128x128 .f32) (b1 : FVec Ideal S128 .f32)
    (w1r w2l : FVec Ideal S128x128 .f32) (b2 : FVec Ideal S128 .f32) (w2r : FVec Ideal S128x128 .f32) :
    val_main_v62 (F := Ideal) x e w1l b1 w1r w2l b2 w2r = twoLayers x e w1l b1 w1r w2l b2 w2r := by
  unfold twoLayers
  funext i
  rw [val_main_v62_apply, val_main_v59_apply, val_main_v56_apply, val_main_v61_apply, val_main_v58_apply, val_main_v57_apply]
  simp only [Ideal.addf_def]
  rw [Sage.bias_between, aggregate_hidden, hidden_eq]
  rfl

end Cert.ReferenceIdeal.Layers

end
-- ==== Proof.KernelValue.lean ====
/-
  The kernel program's result array as the two layers of its arguments.

  Each region's output array is its layer of the arrays the region found (the blocks-to-arrays module); what it
  found is what the host stretch before it left. Before the first region: the mean aggregate of the features along
  the edges, the features themselves, the two first-layer weights transposed (and narrowed to half precision, the
  identity on the extended reals), the first bias. Before the second region: the same aggregation applied to the
  first region's output, that output itself, the second pair of transposed weights and the second bias; the edge
  list, the weights and the biases are argument arrays no segment writes. The aggregation is the very chain of
  host operations the reference applies, and is carried as the reference's own stage, unopened.
-/
import proofs.«148516_j6571299963061_1_alg».proof.Proof.Gen.KernelIdeal.Frame
import proofs.«148516_j6571299963061_1_alg».proof.Proof.LayerBlocks
import proofs.«148516_j6571299963061_1_alg».proof.Proof.RefLayers
import Idealize.ShloMosaic.Lib.StableHlo.Run

set_option maxRecDepth 16384

noncomputable section

namespace Cert.KernelIdeal.Layers

open Cert.KernelIdeal Cert.KernelIdeal.Gen Idealize.ShloMosaic Idealize.ShloMosaic.TcCoe Idealize.SL.Sem Idealize.ShloMosaic.StableHlo
open Cert.ReferenceIdeal.Layers (aggregate transposed twoLayers)

variable (m : (ℓ : Loc nD τ sig) → Buf (Elt Ideal) ℓ) (ρ : Dev nD → PrngReg)

/-! ## What the first region finds -/

set_option maxHeartbeats 4000000 in
/-- The aggregate: the reference's aggregation of the features along the edges. -/
theorem entry0_agg (c : Dev nD) :
    V1 m ρ c main_v22 = aggregate (m ((c : Thread nD τ).loc main_arg0)) (m ((c : Thread nD τ).loc main_arg1)) := by
  show StableHlo.after hostOps0 (W0 m ρ c) (Proc.devRef .tc main_v22) = _
  after_results_simp
  rfl

set_option maxHeartbeats 4000000 in
/-- The features: the first argument, untouched. -/
theorem entry0_x (c : Dev nD) : V1 m ρ c main_arg0 = m ((c : Thread nD τ).loc main_arg0) := by
  show StableHlo.after hostOps0 (W0 m ρ c) (Proc.devRef .tc main_arg0) = _
  after_results_simp

set_option maxHeartbeats 4000000 in
/-- The left weight of the first layer, transposed. -/
theorem entry0_wl (c : Dev nD) : V1 m ρ c main_v24 = transposed (m ((c : Thread nD τ).loc main_arg2)) := by
  show StableHlo.after hostOps0 (W0 m ρ c) (Proc.devRef .tc main_v24) = _
  after_results_simp
  rfl

set_option maxHeartbeats 4000000 in
/-- The right weight of the first layer, transposed. -/
theorem entry0_wr (c : Dev nD) : V1 m ρ c main_v26 = transposed (m ((c : Thread nD τ).loc main_arg4)) := by
  show StableHlo.after hostOps0 (W0 m ρ c) (Proc.devRef .tc main_v26) = _
  after_results_simp
  rfl

set_option maxHeartbeats 4000000 in
/-- The first bias, untouched. -/
theorem entry0_b (c : Dev nD) : V1 m ρ c main_arg3 = m ((c : Thread nD τ).loc main_arg3) := by
  show StableHlo.after hostOps0 (W0 m ρ c) (Proc.devRef .tc main_arg3) = _
  after_results_simp

/-- The first region leaves the hidden layer of the arguments in its output array. -/
theorem hidden_array (c : Dev nD) :
    W2 m ρ c (Proc.devRef .tc main_v27)
      = Sage.hidden (aggregate (m ((c : Thread nD τ).loc main_arg0)) (m ((c : Thread nD τ).loc main_arg1))) (m ((c : Thread nD τ).loc main_arg0))
          (transposed (m ((c : Thread nD τ).loc main_arg2))) (transposed (m ((c : Thread nD τ).loc main_arg4))) (m ((c : Thread nD τ).loc main_arg3)) := by
  refine (W2_arr m ρ c 5).trans ((final0 (V1 m ρ) c).trans ?_)
  show Sage.hidden (V1 m ρ c main_v22) (V1 m ρ c main_arg0) (V1 m ρ c main_v24) (V1 m ρ c main_v26) (V1 m ρ c main_arg3) = _
  rw [entry0_agg, entry0_x, entry0_wl, entry0_wr, entry0_b]

/-! ## The arguments the first region does not stage, after it -/

set_option maxHeartbeats 4000000 in
theorem W2_edges (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  after_results_simp
set_option maxHeartbeats 4000000 in
theorem W2_w2l (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results_simp
set_option maxHeartbeats 4000000 in
theorem W2_b2 (c : Dev nD) : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  after_results_simp
set_option maxHeartbeats 4000000 in
theorem W2_w2r (c : Dev nD) : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  after_results_simp

/-! ## What the second region finds -/

set_option maxHeartbeats 4000000 in
/-- The aggregate of the first region's output along the same edges. -/
theorem entry1_agg (c : Dev nD) :
    V3 m ρ c main_v50 = aggregate (W2 m ρ c (Proc.devRef .tc main_v27)) (W2 m ρ c (Proc.devRef .tc main_arg1)) := by
  show StableHlo.after hostOps1 (W2 m ρ c) (Proc.devRef .tc main_v50) = _
  after_results_simp
  rfl

set_option maxHeartbeats 4000000 in
/-- The first region's output itself. -/
theorem entry1_h (c : Dev nD) : V3 m ρ c main_v27 = W2 m ρ c (Proc.devRef .tc main_v27) := by
  show StableHlo.after hostOps1 (W2 m ρ c) (Proc.devRef .tc main_v27) = _
  after_results_simp

set_option maxHeartbeats 4000000 in
/-- The left weight of the second layer, transposed. -/
theorem entry1_wl (c : Dev nD) : V3 m ρ c main_v52 = transposed (W2 m ρ c (Proc.devRef .tc main_arg5)) := by
  show StableHlo.after hostOps1 (W2 m ρ c) (Proc.devRef .tc main_v52) = _
  after_results_simp
  rfl

set_option maxHeartbeats 4000000 in
/-- The right weight of the second layer, transposed. -/
theorem entry1_wr (c : Dev nD) : V3 m ρ c main_v54 = transposed (W2 m ρ c (Proc.devRef .tc main_arg7)) := by
  show StableHlo.after hostOps1 (W2 m ρ c) (Proc.devRef .tc main_v54) = _
  after_results_simp
  rfl

set_option maxHeartbeats 4000000 in
/-- The second bias. -/
theorem entry1_b (c : Dev nD) : V3 m ρ c main_arg6 = W2 m ρ c (Proc.devRef .tc main_arg6) := by
  show StableHlo.after hostOps1 (W2 m ρ c) (Proc.devRef .tc main_arg6) = _
  after_results_simp

/-! ## The result array -/

/-- After its last write-back the second region's output array is the two layers of the program's arguments. -/
theorem result_array (c : Dev nD) :
    (dat1 (V3 m ρ) c).arrAt 5 cfg1.N
      = twoLayers (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (final1 (V3 m ρ) c).trans ?_
  show Sage.combine (V3 m ρ c main_v50) (V3 m ρ c main_v27) (V3 m ρ c main_v52) (V3 m ρ c main_v54) (V3 m ρ c main_arg6) = _
  rw [entry1_agg, entry1_h, entry1_wl, entry1_wr, entry1_b, hidden_array, W2_edges, W2_w2l, W2_w2r, W2_b2]
  rfl

end Cert.KernelIdeal.Layers

end
-- ==== Proof.lean ====
/-
  Two mean-aggregation SAGE layers, fused combine kernels against the plain formulation.

  The kernel program computes each layer's combine step in a pallas region over blocks of 5000 node rows:
  (agg · Wlᵀ + x · Wrᵀ) + b, cut off at zero in the hidden layer, with the mean aggregation (a gather along the
  edges' sources, scatter-sums over their targets, the degree clamped at one, a quotient) left to host operations.
  The reference computes (agg · Wlᵀ + b) + x · Wrᵀ with host matrix products, the same aggregation before each
  layer, and a maximum with zero between them. On the extended reals the narrowing of the kernel's matrix operands
  is the identity and both kinds of matrix product are the plain sum over the 128 features, so the two programs
  differ only in where the bias joins the sum; addition of extended reals is commutative and associative, infinite
  operands included, so no finiteness of the inputs is used. The aggregation is one function of a feature array and
  the edge list on both sides and is never opened.

  Both idealized programs end with their result array at one function of the eight arguments: the kernel's by the
  run with its result named, each region's output array being its layer of what the host stretch before it left;
  the reference's by its run read stage by stage. Both word-level and idealized kernel programs terminate without a
  fault and leave their arguments as launched; the idealization rewrote no operation.
-/
import proofs.«148516_j6571299963061_1_alg».proof.Defs
import proofs.«148516_j6571299963061_1_alg».proof.Proof.Gen.Kernel
import proofs.«148516_j6571299963061_1_alg».proof.Proof.Gen.Kernel.Skeleton
import proofs.«148516_j6571299963061_1_alg».proof.Proof.Gen.Kernel.Launch
import proofs.«148516_j6571299963061_1_alg».proof.Proof.Gen.Kernel.Points
import proofs.«148516_j6571299963061_1_alg».proof.Proof.Gen.Kernel.Frame
import proofs.«148516_j6571299963061_1_alg».proof.Proof.Gen.KernelIdeal
import proofs.«148516_j6571299963061_1_alg».proof.Proof.Gen.KernelIdeal.Skeleton
import proofs.«148516_j6571299963061_1_alg».proof.Proof.Gen.KernelIdeal.Launch
import proofs.«148516_j6571299963061_1_alg».proof.Proof.Gen.KernelIdeal.Points
import proofs.«148516_j6571299963061_1_alg».proof.Proof.Gen.KernelIdeal.Frame
import proofs.«148516_j6571299963061_1_alg».proof.Proof.Gen.ReferenceIdeal
import proofs.«148516_j6571299963061_1_alg».proof.Proof.Gen.Pre_finite_inputs
import proofs.«148516_j6571299963061_1_alg».proof.Proof.Gen.ReferenceIdeal.Run
import proofs.«148516_j6571299963061_1_alg».proof.Proof.Gen.ReferenceIdeal.Read
import proofs.«148516_j6571299963061_1_alg».proof.Proof.KernelRun
import proofs.«148516_j6571299963061_1_alg».proof.Proof.KernelValue
import proofs.«148516_j6571299963061_1_alg».proof.Proof.RefLayers
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing, so there is nothing to preserve. -/
theorem preserves : Cert.preserves_Kernel_KernelIdeal := trivial

/-- From memories that agree on the eight arguments both idealized programs end with the two layers of those
    arguments in their result arrays. -/
theorem algebraic : Cert.algebraic_KernelIdeal_ReferenceIdeal := by
  intro m ρ m' ρ' _ hagree
  refine ⟨fun c => Cert.ReferenceIdeal.Layers.twoLayers
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Layers.result_array m ρ c), (h c).2⟩)
      (Cert.KernelIdeal.Gen.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7⟩ := hagree c
    rw [Cert.ReferenceIdeal.Read.val_main_v62_eq, Cert.ReferenceIdeal.Layers.result_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
